-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S1x1 : Shape := ⟨2, ![1, 1]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩
abbrev S1x1024x64 : Shape := ⟨3, ![1, 1024, 64]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S16384x64, .f32⟩
  | .hbm, ⟨5, _⟩ => ⟨S1x1, .f32⟩
  | .hbm, ⟨6, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1x1, .f32⟩
  | .local _ .vmem, ⟨7, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64_S1x64 : S64.ShapeCasts S1x64
  inb_S1024x2048_S1024x2048_0_0 : ∀ a, (![0, 0] : Fin 2 → Nat) a + S1024x2048.size a ≤ S1024x2048.size a
  h_S1024x2048 : 0 < S1024x2048.numel
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  shapeCasts_S1024x64_S1x1024x64 : S1024x64.ShapeCasts S1x1024x64
  reduces_S1x1024x64_S1 : S1x1024x64.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  reducesTo_S16384x64_S_d0_1 : S16384x64.ReducesTo [0, 1] S_
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.Spec.lean ====
/-
  A mixture-of-experts router over 16384 tokens of width 2048 and 64 experts, as plain functions on extended reals.

  For a token with features x (2048 numbers), weights W (64 × 2048) and bias b (64 numbers):
    * its logit for expert e is  ∑ₖ x k · W (e, k) + b e;
    * its routing probabilities are the softmax of its 64 logits, taken stably: with M the largest logit,
      exp (L e − M) / ∑ₑ' exp (L e' − M);
    * the z-loss of the whole batch is a fixed coefficient times the mean of the squared logits over all
      16384 × 64 (token, expert) pairs.
  The two ways the z-loss is spelt below differ only in where the division by the count 2²⁰ sits: folded into the
  coefficient (one literal, the coefficient's word with its exponent lowered by twenty), or applied to the sum first.
-/
import Idealize.ShloMosaic.PureOps.Ideal.Laws
import Idealize.ShloMosaic.Lib.ValueIdx

noncomputable section

namespace Router

open Idealize.ShloMosaic Idealize.ShloMosaic.ValueIdx
open scoped BigOperators

/-- The weights: one row of 2048 numbers per expert. -/
abbrev WShape : Shape := ⟨2, ![64, 2048]⟩

/-- One token's logit for expert `e`: the inner product of its features with the expert's row, plus the expert's bias. -/
def logit (xr : Fin 2048 → EReal) (W : WShape.Idx → EReal) (b : Fin 64 → EReal) (e : Fin 64) : EReal :=
  (∑ k : Fin 2048, xr k * W (ix2 e k)) + b e

/-- The value a maximum starts from (the pattern of −∞). -/
def maxInit : EReal := Ideal.ofBits .f32 0xFF800000#32

/-- The largest of a token's 64 logits (the fold of `max` from `maxInit`). -/
def rowMax (L : Fin 64 → EReal) : EReal := (Finset.univ : Finset (Fin 64)).fold max maxInit L

/-- The stable softmax of a token's logits, at expert `e`. -/
def softmax (L : Fin 64 → EReal) (e : Fin 64) : EReal :=
  Ideal.div (Ideal.exp (L e - rowMax L)) (∑ e' : Fin 64, Ideal.exp (L e' - rowMax L))

/-- The sum of the squares of a token's logits. -/
def sqNorm (L : Fin 64 → EReal) : EReal := ∑ e : Fin 64, L e * L e

section Batch

variable (x : (⟨2, ![16384, 2048]⟩ : Shape).Idx → EReal) (W : WShape.Idx → EReal) (b : (⟨1, ![64]⟩ : Shape).Idx → EReal)

/-- Token `r`'s logits. -/
def logits (r : Fin 16384) : Fin 64 → EReal := logit (fun k => x (ix2 r k)) W (fun e => b (ix1 e))

/-- The routing probabilities of the whole batch. -/
def probs : (⟨2, ![16384, 64]⟩ : Shape).Idx → EReal := fun i => softmax (logits x W b (i 0)) (i 1)

/-- Token `p` of the `t`-th block of 1024 consecutive tokens. -/
def tokenRow (t : Fin 16) (p : Fin 1024) : Fin 16384 :=
  ⟨1024 * t.val + p.val, by have := t.isLt; have := p.isLt; omega⟩

/-- The squared logits of one block of 1024 tokens, summed. -/
def blockSq (t : Fin 16) : EReal := ∑ p : Fin 1024, sqNorm (logits x W b (tokenRow t p))

/-- The z-loss with the count folded into the coefficient: the sum over the sixteen blocks times one literal. -/
def zFolded : (⟨0, ![]⟩ : Shape).Idx → EReal := fun _ =>
  (∑ t : Fin 16, blockSq x W b t) * Ideal.ofBits .f32 0x3083126F#32

/-- The z-loss as coefficient × (sum / count). -/
def zMean : (⟨0, ![]⟩ : Shape).Idx → EReal := fun _ =>
  Ideal.ofBits .f32 0x3A83126F#32 * Ideal.div (∑ r : Fin 16384, sqNorm (logits x W b r)) (Ideal.ofBits .f32 0x49800000#32)

end Batch

end Router

end
-- ==== Proof.BlockValue.lean ====
/-
  One block of 1024 tokens, as the kernel's body computes it, read entry by entry on the extended reals.

  The body holds a block `x` of 1024 token rows, the whole weight matrix `W` and the bias as a 1 × 64 row `b`.
    * Its logits value at (p, e) is ∑ₖ x (p, k) · W (e, k) + b (0, e): the matrix product contracts the second
      axis of both operands, starts from the zero splat, and the bias row is repeated down the 1024 rows.
    * Its stored probabilities at (p, e) are the stable softmax of row p of the logits: the row maximum and the row
      sum are reductions along the expert axis, put back as columns and repeated across the 64 experts.
    * Its partial z-loss term is the sum of the squares of all 1024 × 64 logits, the same number at the one index of
      a 1 × 1 vector.
-/
import proofs.«150401_g29652454212574_cont_9to1_1881_22_alg».proof.Proof.Gen.KernelIdeal.Skeleton
import proofs.«150401_g29652454212574_cont_9to1_1881_22_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx
open scoped BigOperators

/-! ## The matrix product's operand indices -/

theorem lhs_axis0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
theorem lhs_axis1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
theorem rhs_axis0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
theorem rhs_axis1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- The product of a block of rows with the transposed weights, from zero, at (p, e): the inner product of row p of
    the block with row e of the weights. -/
theorem product_apply (x0 : FVec Ideal S1024x2048 .f32) (x1 : FVec Ideal S64x2048 .f32) (p : Fin 1024) (e : Fin 64) :
    matmul dot_S1024x2048_S64x2048_S1024x64_1_1_0_0_n_n none x0 x1 (constant S1024x64 .f32 0x00000000#32) (ix2 p e)
      = ∑ k : Fin 2048, x0 (ix2 p k) * x1 (ix2 e k) := by
  simp only [matmul]
  rw [Ideal.matmul_constant_zero_apply, ← Equiv.sum_comp (ValueIdx.contrEquiv1 dot_S1024x2048_S64x2048_S1024x64_1_1_0_0_n_n 2048 rfl rfl).symm]
  refine Finset.sum_congr rfl fun k _ => ?_
  have hk := ValueIdx.contrEquiv1_symm_val dot_S1024x2048_S64x2048_S1024x64_1_1_0_0_n_n 2048 rfl rfl k
  have el : dot_S1024x2048_S64x2048_S1024x64_1_1_0_0_n_n.lhsIdx (ix2 p e) ((ValueIdx.contrEquiv1 dot_S1024x2048_S64x2048_S1024x64_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S64x2048_S1024x64_1_1_0_0_n_n.rhsIdx (ix2 p e) ((ValueIdx.contrEquiv1 dot_S1024x2048_S64x2048_S1024x64_1_1_0_0_n_n 2048 rfl rfl).symm k) = ix2 e k := funext fun a => Fin.ext (by
    match a with
    | ⟨0, _⟩ => exact rhs_axis0 _ _
    | ⟨1, _⟩ => exact (rhs_axis1 _ _).trans hk)
  rw [el, er]

/-! ## Reductions along the expert axis, and columns repeated across it -/

/-- A row's sum. -/
theorem rowSum_apply (v : FVec Ideal S1024x64 .f32) (p : Fin 1024) :
    multiReduction .add [1] S1024 v 0x00000000#32 reduces_S1024x64_S1024 (.inl rfl) rfl (ix1 p) = ∑ e : Fin 64, v (ix2 p e) := by
  refine (Ideal.multiReduction_add_single v 0x00000000#32 reduces_S1024x64_S1024 (.inl rfl) rfl (ix1 p)).trans ?_
  refine Finset.sum_congr rfl fun e _ => ?_
  exact congrArg v (funext fun a => Fin.ext (by match a with | ⟨0, _⟩ => rfl | ⟨1, _⟩ => rfl))

/-- A row's maximum. -/
theorem rowMax_apply (v : FVec Ideal S1024x64 .f32) (p : Fin 1024) :
    multiReduction .maximumf [1] S1024 v 0xFF800000#32 reduces_S1024x64_S1024 (.inl rfl) rfl (ix1 p) = Router.rowMax (fun e => v (ix2 p e)) := by
  refine (Ideal.multiReduction_maximumf_single v 0xFF800000#32 reduces_S1024x64_S1024 (.inl rfl) rfl (ix1 p)).trans ?_
  unfold Router.rowMax Router.maxInit
  exact congrArg (fun f : Fin 64 → EReal => (Finset.univ : Finset (Fin 64)).fold max (Ideal.ofBits .f32 0xFF800000#32) f)
    (funext fun e => congrArg v (funext fun a => Fin.ext (by match a with | ⟨0, _⟩ => rfl | ⟨1, _⟩ => rfl)))

/-- A per-row number put back as a column and repeated across the 64 experts. -/
theorem column_apply (v : FVec Ideal S1024 .f32) (p : Fin 1024) (e : Fin 64) :
    broadcastTo S1024x64 (shapeCast S1024x1 v shapeCasts_S1024_S1024x1) broadcasts_S1024x1_S1024x64 (ix2 p e) = v (ix1 p) := by
  refine (broadcastTo_apply _ broadcasts_S1024x1_S1024x64 (ix2 p e) (ix2 p (0 : Fin 1)) fun a => ?_).trans ?_
  · match a with
    | ⟨0, _⟩ => show p.val = if (1024 : Nat) = 1 then 0 else p.val; rw [if_neg (by decide)]
    | ⟨1, _⟩ => show 0 = if (1 : Nat) = 1 then 0 else e.val; rw [if_pos rfl]
  · exact shapeCast_apply v shapeCasts_S1024_S1024x1 (ix2 p (0 : Fin 1)) (ix1 p) (by
      rw [Shape.rowMajor_val_one, Shape.rowMajor_val_two]
      show p.val = p.val * 1 + 0
      omega)

/-! ## The body's values -/

variable (x0 : Vec Ideal S1024x2048 .f32) (x1 : Vec Ideal S64x2048 .f32) (x2 : Vec Ideal S1x64 .f32)

/-- Row p of the block's logits. -/
abbrev blockLogits (p : Fin 1024) : Fin 64 → EReal :=
  Router.logit (fun k => x0 (ix2 p k)) x1 (fun e => x2 (ix2 (0 : Fin 1) e))

/-- The logits value at (p, e). -/
theorem logits_apply (p : Fin 1024) (e : Fin 64) :
    k0_pay1 (F := Ideal) x0 x1 x2 (ix2 p e) = blockLogits x0 x1 x2 p e := by
  unfold k0_pay1
  show _ = Router.logit (fun k => x0 (ix2 p k)) x1 (fun e => x2 (ix2 (0 : Fin 1) e)) e
  unfold Router.logit
  refine (addf_apply _ _ _).trans ?_
  refine congrArg₂ (· + ·) (product_apply x0 x1 p e) ?_
  refine (broadcastTo_1b_ab_apply _ broadcasts_S1x64_S1024x64 p e).trans ?_
  rw [shapeCast_self]

/-- The stored probabilities at (p, e): the softmax of row p of the logits. -/
theorem probs_apply (p : Fin 1024) (e : Fin 64) :
    k0_pay2 (F := Ideal) x0 x1 x2 (ix2 p e) = Router.softmax (blockLogits x0 x1 x2 p) e := by
  have hL : (fun e' : Fin 64 => k0_pay1 (F := Ideal) x0 x1 x2 (ix2 p e')) = blockLogits x0 x1 x2 p :=
    funext fun e' => logits_apply x0 x1 x2 p e'
  have hshift : ∀ e' : Fin 64,
      subf (k0_pay1 (F := Ideal) x0 x1 x2) (broadcastTo S1024x64 (shapeCast S1024x1 (multiReduction .maximumf [1] S1024 (k0_pay1 (F := Ideal) x0 x1 x2) 0xFF800000#32 reduces_S1024x64_S1024 (.inl rfl) rfl) shapeCasts_S1024_S1024x1) broadcasts_S1024x1_S1024x64) (ix2 p e')
        = blockLogits x0 x1 x2 p e' - Router.rowMax (blockLogits x0 x1 x2 p) := fun e' => by
    refine (subf_apply _ _ _).trans ?_
    rw [column_apply, rowMax_apply, hL, logits_apply]
  unfold k0_pay2 Router.softmax
  refine (divf_apply _ _ _).trans ?_
  refine congrArg₂ Ideal.div ?_ ?_
  · show Ideal.exp _ = _
    exact congrArg Ideal.exp (hshift e)
  · refine (column_apply _ p e).trans ?_
    refine (rowSum_apply _ p).trans ?_
    refine Finset.sum_congr rfl fun e' _ => ?_
    show Ideal.exp _ = _
    exact congrArg Ideal.exp (hshift e')

/-- The block's partial z-loss term, at the one index of its 1 × 1 vector: the sum of the squares of all the
    block's logits. -/
theorem sq_apply (i : S1x1.Idx) :
    k0_pay3 (F := Ideal) x0 x1 x2 i = ∑ p : Fin 1024, Router.sqNorm (blockLogits x0 x1 x2 p) := by
  unfold k0_pay3 Router.sqNorm
  refine (broadcast_apply _ i).trans ?_
  unfold extractAt
  refine (shapeCast_apply _ shapeCasts_S1_S1x1x1 _ (ix1 (0 : Fin 1)) (by
    rw [Shape.rowMajor_val_one, Shape.rowMajor_val_three]; rfl)).trans ?_
  refine (Ideal.multiReduction_add_total _ 0x00000000#32 reduces_S1x1024x64_S1 (fun b => by match b with | ⟨0, _⟩ => rfl) (.inl rfl) rfl (ix1 (0 : Fin 1))).trans ?_
  unfold shapeCast
  rw [Equiv.sum_comp (Shape.reshapeEquiv shapeCasts_S1024x64_S1x1024x64) (mulf (k0_pay1 (F := Ideal) x0 x1 x2) (k0_pay1 (F := Ideal) x0 x1 x2)), sum_idx2]
  refine Finset.sum_congr rfl fun p _ => Finset.sum_congr rfl fun e _ => ?_
  refine (mulf_apply _ _ _).trans ?_
  rw [logits_apply]

end Cert.KernelIdeal.BlockValue

end
-- ==== Proof.Pieces.lean ====
/-
  What one run of the kernel's body leaves behind, as values.

  Whichever of the three control cases a grid point is in, the body stores the block's probabilities whole into
  the probabilities window. The running z-loss sum, carried in a 1 × 1 scratch, is SET to the block's squared-logit
  sum at the first point and has that sum ADDED to it at every later point. At the last point the body also reads
  the freshly updated sum back, multiplies it by the scale literal and stores the product into the z-loss window.
-/
import proofs.«150401_g29652454212574_cont_9to1_1881_22_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point: the probabilities window holds the block's probabilities. -/
theorem probs_first (c : Dev nD) (i : grid0.Coords) (arg1 : Memref sig .tc .vmem S1024x2048 .f32) (harg1 : arg1.IsWhole) (arg2 : Memref sig .tc .vmem S64x2048 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (hc2 : ¬cond0_2 i)
    (x0 : Vec F S1024x2048 .f32) (x1 : Vec F S64x2048 .f32) (x2 : Vec F S1x64 .f32) :
    out0_A_3 c i arg1 harg1 arg2 harg2 arg3 harg3 arg4 harg4 arg5 harg5 arg6 harg6 hc0 hc1 hc2 x0 x1 x2 = k0_pay2 x0 x1 x2 := by
  unfold out0_A_3
  rw [View.read_writes_eq_canon _ _ _ (cover0_A_3 c i arg1 harg1 arg2 harg2 arg3 harg3 arg4 harg4 arg5 harg5 arg6 harg6 hc0 hc1 hc2 x0 x1 x2)]
  unfold kernelRun0_A
  dsimp only
  sl_unfold_words
  rw [View.canon_unit_zero hz]
  simp only [View.readAt_eq_ld, harg1.read_unread, harg2.read_unread, harg3.read_unread, harg6.read_unread, View.ld_unit_zero (S := S1024x2048) hz, View.ld_unit_zero (S := S64x2048) hz, View.ld_unit_zero (S := S1x64) hz, View.ld_unit_zero (S := S1x1) hz, View.readCov_unit_zero (S := S1x1) _ hz]

/-- A middle point: the same. -/
theorem probs_middle (c : Dev nD) (i : grid0.Coords) (arg1 : Memref sig .tc .vmem S1024x2048 .f32) (harg1 : arg1.IsWhole) (arg2 : Memref sig .tc .vmem S64x2048 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (hc2 : ¬cond0_2 i)
    (x0 : Vec F S1024x2048 .f32) (x1 : Vec F S64x2048 .f32) (x2 : Vec F S1x64 .f32) (xs0 : Vec F S1x1 .f32) :
    out0_B_3 c i arg1 harg1 arg2 harg2 arg3 harg3 arg4 harg4 arg5 harg5 arg6 harg6 hc0 hc1 hc2 x0 x1 x2 xs0 = k0_pay2 x0 x1 x2 := by
  unfold out0_B_3
  rw [View.read_writes_eq_canon _ _ _ (cover0_B_3 c i arg1 harg1 arg2 harg2 arg3 harg3 arg4 harg4 arg5 harg5 arg6 harg6 hc0 hc1 hc2 x0 x1 x2 xs0)]
  unfold kernelRun0_B
  dsimp only
  sl_unfold_words
  rw [View.canon_unit_zero hz]
  simp only [View.readAt_eq_ld, harg1.read_unread, harg2.read_unread, harg3.read_unread, harg6.read_unread, View.ld_unit_zero (S := S1024x2048) hz, View.ld_unit_zero (S := S64x2048) hz, View.ld_unit_zero (S := S1x64) hz, View.ld_unit_zero (S := S1x1) hz, View.readCov_unit_zero (S := S1x1) _ hz]

/-- The last point: the same. -/
theorem probs_last (c : Dev nD) (i : grid0.Coords) (arg1 : Memref sig .tc .vmem S1024x2048 .f32) (harg1 : arg1.IsWhole) (arg2 : Memref sig .tc .vmem S64x2048 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (hc2 : cond0_2 i)
    (x0 : Vec F S1024x2048 .f32) (x1 : Vec F S64x2048 .f32) (x2 : Vec F S1x64 .f32) (xs0 : Vec F S1x1 .f32) :
    out0_C_3 c i arg1 harg1 arg2 harg2 arg3 harg3 arg4 harg4 arg5 harg5 arg6 harg6 hc0 hc1 hc2 x0 x1 x2 xs0 = k0_pay2 x0 x1 x2 := by
  unfold out0_C_3
  rw [View.read_writes_eq_canon _ _ _ (cover0_C_3 c i arg1 harg1 arg2 harg2 arg3 harg3 arg4 harg4 arg5 harg5 arg6 harg6 hc0 hc1 hc2 x0 x1 x2 xs0)]
  unfold kernelRun0_C
  dsimp only
  sl_unfold_words
  rw [View.canon_unit_zero hz]
  simp only [View.readAt_eq_ld, harg1.read_unread, harg2.read_unread, harg3.read_unread, harg6.read_unread, View.ld_unit_zero (S := S1024x2048) hz, View.ld_unit_zero (S := S64x2048) hz, View.ld_unit_zero (S := S1x64) hz, View.ld_unit_zero (S := S1x1) hz, View.readCov_unit_zero (S := S1x1) _ hz]

/-- First point: the carried sum is set to the block's term. -/
theorem acc_first (c : Dev nD) (i : grid0.Coords) (arg1 : Memref sig .tc .vmem S1024x2048 .f32) (harg1 : arg1.IsWhole) (arg2 : Memref sig .tc .vmem S64x2048 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (hc2 : ¬cond0_2 i)
    (x0 : Vec F S1024x2048 .f32) (x1 : Vec F S64x2048 .f32) (x2 : Vec F S1x64 .f32) :
    sout0_A_0 c i arg1 harg1 arg2 harg2 arg3 harg3 arg4 harg4 arg5 harg5 arg6 harg6 hc0 hc1 hc2 x0 x1 x2 = k0_pay4 x0 x1 x2 := by
  unfold sout0_A_0
  rw [View.read_writes_eq_canon _ _ _ (scover0_A_0 c i arg1 harg1 arg2 harg2 arg3 harg3 arg4 harg4 arg5 harg5 arg6 harg6 hc0 hc1 hc2 x0 x1 x2)]
  unfold kernelRun0_A
  dsimp only
  sl_unfold_words
  rw [View.canon_unit_zero hz]
  simp only [View.readAt_eq_ld, harg1.read_unread, harg2.read_unread, harg3.read_unread, harg6.read_unread, View.ld_unit_zero (S := S1024x2048) hz, View.ld_unit_zero (S := S64x2048) hz, View.ld_unit_zero (S := S1x64) hz, View.ld_unit_zero (S := S1x1) hz, View.readCov_unit_zero (S := S1x1) _ hz]

/-- A middle point: the block's term is added to what the point before left. -/
theorem acc_middle (c : Dev nD) (i : grid0.Coords) (arg1 : Memref sig .tc .vmem S1024x2048 .f32) (harg1 : arg1.IsWhole) (arg2 : Memref sig .tc .vmem S64x2048 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (hc2 : ¬cond0_2 i)
    (x0 : Vec F S1024x2048 .f32) (x1 : Vec F S64x2048 .f32) (x2 : Vec F S1x64 .f32) (xs0 : Vec F S1x1 .f32) :
    sout0_B_0 c i arg1 harg1 arg2 harg2 arg3 harg3 arg4 harg4 arg5 harg5 arg6 harg6 hc0 hc1 hc2 x0 x1 x2 xs0 = k0_pay5 x0 x1 x2 xs0 := by
  unfold sout0_B_0
  rw [View.read_writes_eq_canon _ _ _ (scover0_B_0 c i arg1 harg1 arg2 harg2 arg3 harg3 arg4 harg4 arg5 harg5 arg6 harg6 hc0 hc1 hc2 x0 x1 x2 xs0)]
  unfold kernelRun0_B
  dsimp only
  sl_unfold_words
  rw [View.canon_unit_zero hz]
  simp only [View.readAt_eq_ld, harg1.read_unread, harg2.read_unread, harg3.read_unread, harg6.read_unread, View.ld_unit_zero (S := S1024x2048) hz, View.ld_unit_zero (S := S64x2048) hz, View.ld_unit_zero (S := S1x64) hz, View.ld_unit_zero (S := S1x1) hz, View.readCov_unit_zero (S := S1x1) _ hz]

/-- The last point: likewise. -/
theorem acc_last (c : Dev nD) (i : grid0.Coords) (arg1 : Memref sig .tc .vmem S1024x2048 .f32) (harg1 : arg1.IsWhole) (arg2 : Memref sig .tc .vmem S64x2048 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (hc2 : cond0_2 i)
    (x0 : Vec F S1024x2048 .f32) (x1 : Vec F S64x2048 .f32) (x2 : Vec F S1x64 .f32) (xs0 : Vec F S1x1 .f32) :
    sout0_C_0 c i arg1 harg1 arg2 harg2 arg3 harg3 arg4 harg4 arg5 harg5 arg6 harg6 hc0 hc1 hc2 x0 x1 x2 xs0 = k0_pay5 x0 x1 x2 xs0 := by
  unfold sout0_C_0
  rw [View.read_writes_eq_canon _ _ _ (scover0_C_0 c i arg1 harg1 arg2 harg2 arg3 harg3 arg4 harg4 arg5 harg5 arg6 harg6 hc0 hc1 hc2 x0 x1 x2 xs0)]
  unfold kernelRun0_C
  dsimp only
  sl_unfold_words
  rw [View.canon_unit_zero hz]
  simp only [View.readAt_eq_ld, harg1.read_unread, harg2.read_unread, harg3.read_unread, harg6.read_unread, View.ld_unit_zero (S := S1024x2048) hz, View.ld_unit_zero (S := S64x2048) hz, View.ld_unit_zero (S := S1x64) hz, View.ld_unit_zero (S := S1x1) hz, View.readCov_unit_zero (S := S1x1) _ hz]

/-- The last point: the z-loss window holds the updated sum times the scale literal. -/
theorem zloss_last (c : Dev nD) (i : grid0.Coords) (arg1 : Memref sig .tc .vmem S1024x2048 .f32) (harg1 : arg1.IsWhole) (arg2 : Memref sig .tc .vmem S64x2048 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (hc2 : cond0_2 i)
    (x0 : Vec F S1024x2048 .f32) (x1 : Vec F S64x2048 .f32) (x2 : Vec F S1x64 .f32) (xs0 : Vec F S1x1 .f32) :
    out0_C_4 c i arg1 harg1 arg2 harg2 arg3 harg3 arg4 harg4 arg5 harg5 arg6 harg6 hc0 hc1 hc2 x0 x1 x2 xs0 = k0_pay6 (k0_pay5 x0 x1 x2 xs0) := by
  unfold out0_C_4
  rw [View.read_writes_eq_canon _ _ _ (cover0_C_4 c i arg1 harg1 arg2 harg2 arg3 harg3 arg4 harg4 arg5 harg5 arg6 harg6 hc0 hc1 hc2 x0 x1 x2 xs0)]
  unfold kernelRun0_C
  dsimp only
  sl_unfold_words
  rw [View.canon_unit_zero hz]
  simp only [View.readAt_eq_ld, harg1.read_unread, harg2.read_unread, harg3.read_unread, harg6.read_unread, View.ld_unit_zero (S := S1024x2048) hz, View.ld_unit_zero (S := S64x2048) hz, View.ld_unit_zero (S := S1x64) hz, View.ld_unit_zero (S := S1x1) hz, View.readCov_unit_zero (S := S1x1) _ hz]

end Cert.KernelIdeal.Pieces

end
-- ==== Proof.KernelValue.lean ====
/-
  The kernel's two results after the whole grid has run, as functions of the argument arrays.

  The grid has sixteen points; point t stages tokens 1024 t … 1024 t + 1023, the whole weight matrix and the bias
  (recast as one row before the launch). Each point writes its block's softmax probabilities back to rows
  1024 t … of the first result, so the sixteen blocks tile it with every token's probabilities. A 1 × 1 scratch
  carries the running sum of squared logits: by induction on the point it holds, after point n, the sum of the
  blocks' terms up to n. The last point multiplies the full sum by the scale literal into the 1 × 1 second window,
  written back once, and the line after the launch recasts that cell as the scalar result.
-/
import proofs.«150401_g29652454212574_cont_9to1_1881_22_alg».proof.Proof.Gen.KernelIdeal.Frame
import proofs.«150401_g29652454212574_cont_9to1_1881_22_alg».proof.Proof.BlockValue
import proofs.«150401_g29652454212574_cont_9to1_1881_22_alg».proof.Proof.Pieces
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-! ## The arrays and the blocks the windows hand the body -/

abbrev xarr (c : Dev nD) : Vec Ideal S16384x2048 .f32 := m ((c : Thread nD τ).loc main_arg0)
abbrev warr (c : Dev nD) : Vec Ideal S64x2048 .f32 := m ((c : Thread nD τ).loc main_arg1)
abbrev barr (c : Dev nD) : Vec Ideal S64 .f32 := m ((c : Thread nD τ).loc main_arg2)

abbrev xblk (c : Dev nD) (t : Fin cfg0.N) : Vec Ideal S1024x2048 .f32 := iblk m c 0 t
abbrev wblk (c : Dev nD) (t : Fin cfg0.N) : Vec Ideal S64x2048 .f32 := iblk m c 1 t
abbrev bblk (c : Dev nD) (t : Fin cfg0.N) : Vec Ideal S1x64 .f32 := iblk m c 2 t

theorem N16 : cfg0.N = 16 := N_0

/-- The grid point's block of tokens, as a block number below sixteen. -/
abbrev blockOf (t : Fin cfg0.N) : Fin 16 := ⟨t.val, lt_of_lt_of_eq t.isLt N16⟩

/-- Where the windows' blocks sit: the token and probability windows move down one block per point, the weights,
    the bias row and the z-loss cell stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- Row p of the token block at point t is token 1024 t + p. -/
theorem xblk_apply (c : Dev nD) (t : Fin cfg0.N) (p : Fin 1024) (k : Fin 2048) :
    xblk m c t (ix2 p k) = xarr m c (ix2 (Router.tokenRow (blockOf t) p) k) := by
  show V m c main_arg0 (((cfg0.win 0).blk t).view.emb (ix2 p k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 1024 + 1 * p.val = 1024 * t.val + p.val; omega
  | ⟨1, _⟩ => show win0_0.index t (1 : Fin 2) * 2048 + 1 * k.val = k.val; omega

/-- The weights window hands over the whole weight matrix. -/
theorem wblk_apply (c : Dev nD) (t : Fin cfg0.N) (e : Fin 64) (k : Fin 2048) :
    wblk m c t (ix2 e k) = warr m c (ix2 e k) := by
  show V m c main_arg1 (((cfg0.win 1).blk t).view.emb (ix2 e k)) = _
  rw [V_main_arg1]
  refine congrArg (m ((c : Thread nD τ).loc main_arg1)) (funext fun a => Fin.ext ?_)
  obtain ⟨-, -, e0, e1, -⟩ := idx_facts t
  match a with
  | ⟨0, _⟩ => show win0_1.index t (0 : Fin 2) * 64 + 1 * e.val = e.val; omega
  | ⟨1, _⟩ => show win0_1.index t (1 : Fin 2) * 2048 + 1 * k.val = k.val; omega

/-- The bias as the region finds it: the argument recast as one row. -/
theorem brow_eq (c : Dev nD) :
    (V m c main_v0 : S1x64.Idx → EReal) = shapeCast S1x64 (m ((c : Thread nD τ).loc main_arg2)) shapeCasts_S64_S1x64 := by
  show StableHlo.after hostOps0 (fun b => m (c, b)) (Proc.devRef .tc main_v0) = _
  after_results
  rfl

/-- The bias window hands over that row: its entry (0, e) is the bias of expert e. -/
theorem bblk_apply (c : Dev nD) (t : Fin cfg0.N) (e : Fin 64) :
    bblk m c t (ix2 (0 : Fin 1) e) = barr m c (ix1 e) := by
  show V m c main_v0 (((cfg0.win 2).blk t).view.emb (ix2 (0 : Fin 1) e)) = _
  have hemb : ((cfg0.win 2).blk t).view.emb (ix2 (0 : Fin 1) e) = ix2 (0 : Fin 1) e := funext fun a => Fin.ext (by
    obtain ⟨-, -, -, -, e0, e1, -⟩ := idx_facts t
    match a with
    | ⟨0, _⟩ => show win0_2.index t (0 : Fin 2) * 1 + 1 * 0 = 0; omega
    | ⟨1, _⟩ => show win0_2.index t (1 : Fin 2) * 64 + 1 * e.val = e.val; omega)
  refine (congrArg (V m c main_v0 : S1x64.Idx → EReal) hemb).trans ?_
  refine (congrFun (brow_eq m c) _).trans ?_
  exact shapeCast_a_1a_apply _ _ 0 e

/-- The logits the body computes for row p of its block are the logits of token 1024 t + p. -/
theorem blockLogits_eq (c : Dev nD) (t : Fin cfg0.N) (p : Fin 1024) :
    BlockValue.blockLogits (xblk m c t) (wblk m c t) (bblk m c t) p
      = Router.logits (xarr m c) (warr m c) (barr m c) (Router.tokenRow (blockOf t) p) := by
  funext e
  show Router.logit _ _ _ e = Router.logit _ _ _ e
  unfold Router.logit
  refine congrArg₂ (· + ·) (Finset.sum_congr rfl fun k _ => ?_) (bblk_apply m c t e)
  exact congrArg₂ (· * ·) (xblk_apply m c t p k) (wblk_apply m c t e k)

/-! ## What each point leaves, by the case it is in -/

theorem first_acc (c : Dev nD) (t : Fin cfg0.N) (h0 : t.val % 16 = 0) (h1 : ¬1 ≤ t.val) (h2 : ¬t.val % 16 = 15) :
    (outsAt0 m c t.val t.isLt).2.2 = k0_pay4 (xblk m c t) (wblk m c t) (bblk m c t) := by
  rw [outsAt0_A m c t h0 h1 h2]
  dsimp only
  exact Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (xblk m c t) (wblk m c t) (bblk m c t)

theorem middle_acc (c : Dev nD) (t : Fin cfg0.N) (h0 : ¬t.val % 16 = 0) (h1 : 1 ≤ t.val) (h2 : ¬t.val % 16 = 15) :
    (outsAt0 m c t.val t.isLt).2.2 = k0_pay5 (xblk m c t) (wblk m c t) (bblk m c t) (outsAt0 m c (t.val - 1) (Nat.lt_of_le_of_lt (Nat.sub_le _ _) t.isLt)).2.2 := by
  rw [outsAt0_B m c t h0 h1 h2]
  dsimp only
  exact Pieces.acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (xblk m c t) (wblk m c t) (bblk m c t) (outsAt0 m c (t.val - 1) (Nat.lt_of_le_of_lt (Nat.sub_le _ _) t.isLt)).2.2

theorem last_acc (c : Dev nD) (t : Fin cfg0.N) (h0 : ¬t.val % 16 = 0) (h1 : 1 ≤ t.val) (h2 : t.val % 16 = 15) :
    (outsAt0 m c t.val t.isLt).2.2 = k0_pay5 (xblk m c t) (wblk m c t) (bblk m c t) (outsAt0 m c (t.val - 1) (Nat.lt_of_le_of_lt (Nat.sub_le _ _) t.isLt)).2.2 := by
  rw [outsAt0_C m c t h0 h1 h2]
  dsimp only
  exact Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (xblk m c t) (wblk m c t) (bblk m c t) (outsAt0 m c (t.val - 1) (Nat.lt_of_le_of_lt (Nat.sub_le _ _) t.isLt)).2.2

theorem last_z (c : Dev nD) (t : Fin cfg0.N) (h0 : ¬t.val % 16 = 0) (h1 : 1 ≤ t.val) (h2 : t.val % 16 = 15) :
    (outsAt0 m c t.val t.isLt).2.1 = k0_pay6 (k0_pay5 (xblk m c t) (wblk m c t) (bblk m c t) (outsAt0 m c (t.val - 1) (Nat.lt_of_le_of_lt (Nat.sub_le _ _) t.isLt)).2.2) := by
  rw [outsAt0_C m c t h0 h1 h2]
  dsimp only
  exact Pieces.zloss_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (xblk m c t) (wblk m c t) (bblk m c t) (outsAt0 m c (t.val - 1) (Nat.lt_of_le_of_lt (Nat.sub_le _ _) t.isLt)).2.2

/-- At every point the probabilities window is left holding the block's probabilities. -/
theorem probsAt (c : Dev nD) (t : Fin cfg0.N) :
    (outsAt0 m c t.val t.isLt).1 = k0_pay2 (xblk m c t) (wblk m c t) (bblk m c t) := by
  have hN : t.val < 16 := lt_of_lt_of_eq t.isLt N16
  by_cases h0 : t.val % 16 = 0
  · have h1 : ¬1 ≤ t.val := by omega
    have h2 : ¬t.val % 16 = 15 := by omega
    rw [outsAt0_A m c t h0 h1 h2]
    dsimp only
    exact Pieces.probs_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (xblk m c t) (wblk m c t) (bblk m c t)
  · have h1 : 1 ≤ t.val := by omega
    by_cases h2 : t.val % 16 = 15
    · rw [outsAt0_C m c t h0 h1 h2]
      dsimp only
      exact Pieces.probs_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (xblk m c t) (wblk m c t) (bblk m c t) (outsAt0 m c (t.val - 1) (Nat.lt_of_le_of_lt (Nat.sub_le _ _) t.isLt)).2.2
    · rw [outsAt0_B m c t h0 h1 h2]
      dsimp only
      exact Pieces.probs_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (xblk m c t) (wblk m c t) (bblk m c t) (outsAt0 m c (t.val - 1) (Nat.lt_of_le_of_lt (Nat.sub_le _ _) t.isLt)).2.2

/-! ## The carried sum -/

/-- The squared-logit sum of the block at point n (zero past the grid). -/
def term (c : Dev nD) (n : ℕ) : EReal :=
  if h : n < cfg0.N then ∑ p : Fin 1024, Router.sqNorm (BlockValue.blockLogits (xblk m c ⟨n, h⟩) (wblk m c ⟨n, h⟩) (bblk m c ⟨n, h⟩) p) else 0

/-- After point n the scratch holds the sum of the terms of the points up to n: set at the first point, added to at
    each later one. -/
theorem acc_eq (c : Dev nD) : ∀ (n : ℕ) (h : n < cfg0.N) (i : S1x1.Idx),
    (outsAt0 m c n h).2.2 i = ∑ s ∈ Finset.range (n + 1), term m c s
  | 0, h, i => by
    refine (congrFun (first_acc m c ⟨0, h⟩ rfl (by dsimp only; omega) (by dsimp only; omega)) i).trans ?_
    unfold k0_pay4
    rw [shapeCast_self, BlockValue.sq_apply, Finset.sum_range_one]
    unfold term
    rw [dif_pos h]
  | n + 1, h, i => by
    have hN := N16
    have ih := acc_eq c n (Nat.lt_of_succ_lt h) i
    have h0 : ¬(⟨n + 1, h⟩ : Fin cfg0.N).val % 16 = 0 := by dsimp only; omega
    have h1 : 1 ≤ (⟨n + 1, h⟩ : Fin cfg0.N).val := by dsimp only; omega
    have key : (outsAt0 m c (n + 1) h).2.2 = k0_pay5 (xblk m c ⟨n + 1, h⟩) (wblk m c ⟨n + 1, h⟩) (bblk m c ⟨n + 1, h⟩) (outsAt0 m c n (Nat.lt_of_succ_lt h)).2.2 := by
      by_cases h2 : (⟨n + 1, h⟩ : Fin cfg0.N).val % 16 = 15
      · exact last_acc m c ⟨n + 1, h⟩ h0 h1 h2
      · exact middle_acc m c ⟨n + 1, h⟩ h0 h1 h2
    refine (congrFun key i).trans ?_
    unfold k0_pay5
    rw [shapeCast_self]
    refine (addf_apply _ _ _).trans ?_
    rw [ih, BlockValue.sq_apply, Finset.sum_range_succ _ (n + 1)]
    congr 1
    unfold term
    rw [dif_pos h]

/-- A point's term is its block's squared-logit sum over the tokens' own logits. -/
theorem term_eq (c : Dev nD) (s : Fin 16) :
    term m c s.val = Router.blockSq (xarr m c) (warr m c) (barr m c) s := by
  have h : s.val < cfg0.N := by rw [N16]; exact s.isLt
  unfold term Router.blockSq
  rw [dif_pos h]
  exact Finset.sum_congr rfl fun p _ => congrArg Router.sqNorm (blockLogits_eq m c ⟨s.val, h⟩ p)

/-! ## The probabilities array -/

/-- The routing probabilities of all tokens, as contents of the first result array. -/
abbrev probsArr (c : Dev nD) : Buf (Elt Ideal) ((c : Thread nD τ).loc main_v1_0) :=
  Router.probs (xarr m c) (warr m c) (barr m c)

/-- Every point writes back the probabilities of its own 1024 tokens. -/
theorem flushed3_eq (c : Dev nD) (t : Fin cfg0.N) :
    (dats m 0 c).flushed 3 t = ((cfg0.win 3).blk t).view.read (Elt Ideal) (probsArr m c) := by
  show (cfg0.win 3).cut (grid0.coords t) ((dats m 0 c).after 3 t) = _
  rw [after0_3, probsAt]
  funext j
  obtain ⟨p, e, rfl⟩ : ∃ (p : Fin 1024) (e : Fin 64), j = ix2 p e := ⟨j 0, j 1, eq_ix2 j⟩
  show k0_pay2 (F := Ideal) (xblk m c t) (wblk m c t) (bblk m c t) (ix2 p e) = probsArr m c (((cfg0.win 3).blk t).view.emb (ix2 p e))
  have hemb : ((cfg0.win 3).blk t).view.emb (ix2 p e) = ix2 (Router.tokenRow (blockOf t) p) e := funext fun a => Fin.ext (by
    obtain ⟨-, -, -, -, -, -, e0, e1, -⟩ := idx_facts t
    match a with
    | ⟨0, _⟩ => show win0_3.index t (0 : Fin 2) * 1024 + 1 * p.val = 1024 * t.val + p.val; omega
    | ⟨1, _⟩ => show win0_3.index t (1 : Fin 2) * 64 + 1 * e.val = e.val; omega)
  rw [hemb, BlockValue.probs_apply, blockLogits_eq]
  rfl

/-- The sixteen blocks of 1024 rows tile the array, so it ends holding every token's probabilities. -/
theorem final3 (c : Dev nD) : (dats m 0 c).arrAt 3 cfg0.N = probsArr m c :=
  (dats m 0 c).arrAt_eq_of_cover 3 (probsArr m c) (fun t _ => flushed3_eq m c t) fun i => by
    have hi0 : (i 0).val < 16384 := (i 0).isLt
    have hi1 : (i 1).val < 64 := (i 1).isLt
    have ht : (i 0).val / 1024 < cfg0.N := by rw [N16]; omega
    refine ⟨⟨(i 0).val / 1024, ht⟩, flush0_3 _, ?_⟩
    show i ∈ ((View.whole main_v1_0).slice (win0_3.rect ⟨(i 0).val / 1024, ht⟩)).set
    rw [View.set_slice_whole, Rect.mem_set_unit]
    obtain ⟨-, -, -, -, -, -, e0, e1, -⟩ := idx_facts ⟨(i 0).val / 1024, ht⟩
    intro a
    match a with
    | ⟨0, _⟩ => show win0_3.index ⟨(i 0).val / 1024, ht⟩ (0 : Fin 2) * 1024 ≤ (i 0).val ∧ (i 0).val < win0_3.index ⟨(i 0).val / 1024, ht⟩ (0 : Fin 2) * 1024 + 1024; rw [e0]; dsimp only; omega
    | ⟨1, _⟩ => show win0_3.index ⟨(i 0).val / 1024, ht⟩ (1 : Fin 2) * 64 ≤ (i 1).val ∧ (i 1).val < win0_3.index ⟨(i 0).val / 1024, ht⟩ (1 : Fin 2) * 64 + 64; rw [e1]; omega

/-! ## The z-loss cell -/

/-- The z-loss, as contents of the 1 × 1 result array. -/
abbrev zCell (c : Dev nD) : Buf (Elt Ideal) ((c : Thread nD τ).loc main_v1_1) :=
  fun _ => Router.zFolded (xarr m c) (warr m c) (barr m c) ix0

/-- The one write-back of the cell, after the last point: the full sum times the scale literal. -/
theorem flushed4_eq (c : Dev nD) (t : Fin cfg0.N) (hf : (cfg0.win 4).flush t = true) :
    (dats m 0 c).flushed 4 t = ((cfg0.win 4).blk t).view.read (Elt Ideal) (zCell m c) := by
  have hN : t.val < 16 := lt_of_lt_of_eq t.isLt N16
  have h2 : t.val % 16 = 15 := (flush0_4 t).mp hf
  have h0 : ¬t.val % 16 = 0 := by omega
  have h1 : 1 ≤ t.val := by omega
  show (cfg0.win 4).cut (grid0.coords t) ((dats m 0 c).after 4 t) = _
  rw [after0_4, last_z m c t h0 h1 h2]
  funext j
  show k0_pay6 (F := Ideal) (k0_pay5 (xblk m c t) (wblk m c t) (bblk m c t) (outsAt0 m c (t.val - 1) (Nat.lt_of_le_of_lt (Nat.sub_le _ _) t.isLt)).2.2) j = Router.zFolded (xarr m c) (warr m c) (barr m c) ix0
  have hacc : k0_pay5 (F := Ideal) (xblk m c t) (wblk m c t) (bblk m c t) (outsAt0 m c (t.val - 1) (Nat.lt_of_le_of_lt (Nat.sub_le _ _) t.isLt)).2.2 j = ∑ s ∈ Finset.range (t.val + 1), term m c s :=
    (congrFun (last_acc m c t h0 h1 h2) j).symm.trans (acc_eq m c t.val t.isLt j)
  unfold k0_pay6
  refine (mulf_apply _ _ _).trans ?_
  rw [hacc]
  show (∑ s ∈ Finset.range (t.val + 1), term m c s) * Ideal.ofBits .f32 0x3083126F#32 = (∑ s : Fin 16, Router.blockSq (xarr m c) (warr m c) (barr m c) s) * Ideal.ofBits .f32 0x3083126F#32
  rw [show t.val + 1 = 16 by omega, Finset.sum_range]
  exact congrArg (· * Ideal.ofBits .f32 0x3083126F#32) (Finset.sum_congr rfl fun s _ => term_eq m c s)

/-- The last point's block is the whole 1 × 1 array. -/
theorem final4 (c : Dev nD) : (dats m 0 c).arrAt 4 cfg0.N = zCell m c :=
  (dats m 0 c).arrAt_eq_of_cover 4 (zCell m c) (flushed4_eq m c) fun i => by
    have ht : 15 < cfg0.N := by rw [N16]; decide
    refine ⟨⟨15, ht⟩, (flush0_4 _).mpr rfl, ?_⟩
    show i ∈ ((View.whole main_v1_1).slice (win0_4.rect ⟨15, ht⟩)).set
    rw [View.set_slice_whole, Rect.mem_set_unit]
    obtain ⟨-, -, -, -, -, -, -, -, e0, e1⟩ := idx_facts ⟨15, ht⟩
    have hi0 : (i 0).val < 1 := (i 0).isLt
    have hi1 : (i 1).val < 1 := (i 1).isLt
    intro a
    match a with
    | ⟨0, _⟩ => show win0_4.index ⟨15, ht⟩ (0 : Fin 2) * 1 ≤ (i 0).val ∧ (i 0).val < win0_4.index ⟨15, ht⟩ (0 : Fin 2) * 1 + 1; rw [e0]; omega
    | ⟨1, _⟩ => show win0_4.index ⟨15, ht⟩ (1 : Fin 2) * 1 ≤ (i 1).val ∧ (i 1).val < win0_4.index ⟨15, ht⟩ (1 : Fin 2) * 1 + 1; rw [e1]; omega

/-! ## The line after the region: the cell recast as a scalar -/

/-- The second result: the scalar z-loss. -/
abbrev zRes (c : Dev nD) : Buf (Elt Ideal) ((c : Thread nD τ).loc main_v2) :=
  Router.zFolded (xarr m c) (warr m c) (barr m c)

theorem tail_eq (c : Dev nD) :
    Pipeline.afterTail₀ cfgs (dats m) 0 (V0 m) [hostOps1] c main_v2 = zRes m c := by
  unfold Pipeline.afterTail₀
  show StableHlo.after hostOps1 _ (Proc.devRef .tc main_v2) = _
  after_results
  funext i
  have e := (Pipeline.withArrays_arr spec0 launch0.win.arr_inj c (V0 m c) (fun w => (dats m 0 c).arrAt w cfg0.N) 4).trans (final4 m c)
  exact congrFun e (Shape.reshapeEquiv shapeCasts_S1x1_S_ i)

/-! ## The run, read -/

/-- Every weakly fair execution ends with the first result at every token's routing probabilities, the second at
    the z-loss, and the arguments as they were. -/
theorem run : θ_run defs (onTc (τ := τ) (main (F := Ideal))) ⟨m, fun _ => 0, ρ⟩ fun r => ∀ c : Dev nD,
      r.2.mem ((c.tc : Thread nD τ).loc main_v1_0) = probsArr m c
      ∧ r.2.mem ((c.tc : Thread nD τ).loc main_v2) = zRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c),
      ((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference program read as mathematics. Its values are followed one operation at a time from the arguments:
  the product of the tokens with the transposed weights plus the broadcast bias is each token's logits; the maximum
  over the experts, the exponentials of the differences and their sum give the stable softmax; the sum of the squared
  logits over every (token, expert) pair, divided by the count and multiplied by the coefficient, is the z-loss.
  Both results are identified, as functions of the index, with the router's definitions on extended reals.
-/
import proofs.«150401_g29652454212574_cont_9to1_1881_22_alg».proof.Proof.Gen.ReferenceIdeal.Read
import proofs.«150401_g29652454212574_cont_9to1_1881_22_alg».proof.Proof.Spec
import Mathlib.Data.Finset.Fold

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The indices the operations read at, by coordinates -/

/-- The left operand's index of the product at (r, e), contraction coordinate k, is (r, k). -/
theorem lidx_eq (r : Fin 16384) (e : Fin 64) (k : Fin 2048) : lidx_main_v1 (ix2 r e) k = ix2 r k :=
  funext fun a => Fin.ext (by match a with | ⟨0, _⟩ => rfl | ⟨1, _⟩ => rfl)

/-- The transposed weights at (k, e) are the weights at (e, k). -/
theorem widx_eq (r : Fin 16384) (e : Fin 64) (k : Fin 2048) : idx_main_v0 (ridx_main_v1 (ix2 r e) k) = ix2 e k :=
  funext fun a => Fin.ext (by match a with | ⟨0, _⟩ => rfl | ⟨1, _⟩ => rfl)

/-- The bias broadcast to (r, e) is the bias at e. -/
theorem bidx_eq (r : Fin 16384) (e : Fin 64) : idx_main_v2 (idx_main_v3 (ix2 r e)) = ix1 e :=
  funext fun a => Fin.ext (by match a with | ⟨0, _⟩ => rfl)

/-- The per-token maximum broadcast along the experts is read, at (r, e), at r. -/
theorem midx_eq (r : Fin 16384) (e : Fin 64) : idx_main_v8 (idx_main_v9 (ix2 r e)) = ix1 r :=
  funext fun a => Fin.ext (by match a with | ⟨0, _⟩ => rfl)

/-- The per-token sum broadcast along the experts is read, at (r, e), at r. -/
theorem sidx_eq (r : Fin 16384) (e : Fin 64) : idx_main_v13 (idx_main_v14 (ix2 r e)) = ix1 r :=
  funext fun a => Fin.ext (by match a with | ⟨0, _⟩ => rfl)

/-- The k-th summand of token r's sum over the experts sits at (r, k). -/
theorem kidx_eq (r : Fin 16384) (k : Fin 64) : idx_main_v12 (ix1 r) k = ix2 r k :=
  funext fun a => Fin.ext (by match a with | ⟨0, _⟩ => rfl | ⟨1, _⟩ => rfl)

/-- Reducing over the experts: token r's index with the expert coordinate k inserted is (r, k). -/
theorem lift_eq (h : S16384x64.Reduces [1] S16384) (r : Fin 16384) (k : Fin 64) : h.lift (ix1 r) k = ix2 r k :=
  funext fun a => Fin.ext (by match a with | ⟨0, _⟩ => rfl | ⟨1, _⟩ => rfl)

/-! ## The values -/

section
variable (x0 : (⟨S16384x2048, .f32⟩ : BufTy).Contents (Elt Ideal)) (x1 : (⟨S64x2048, .f32⟩ : BufTy).Contents (Elt Ideal))
  (x2 : (⟨S64, .f32⟩ : BufTy).Contents (Elt Ideal))

/-- The product plus the bias, at (r, e), is token r's logit for expert e. -/
theorem logits_eq (r : Fin 16384) (e : Fin 64) :
    val_main_v4 (F := Ideal) x0 x1 x2 (ix2 r e) = Router.logits x0 x1 x2 r e := by
  rw [val_main_v4_apply, val_main_v1_apply, val_main_v3_apply, val_main_v2_apply, bidx_eq]
  simp only [val_main_v0_apply, lidx_eq, widx_eq, Ideal.addf_def]
  rfl

/-- The maximum the program subtracts from token r's logits is the fold of max over them. The program takes the
    maximum of its starting value with a fold that already starts from that value; since the starting value lies
    below such a fold whatever it is, the outer maximum changes nothing. -/
theorem rowmax_eq (r : Fin 16384) :
    val_main_v7 (F := Ideal) x0 x1 x2 (ix1 r) = Router.rowMax (Router.logits x0 x1 x2 r) := by
  have h : S16384x64.Reduces [1] S16384 := by decide
  rw [val_main_v7_apply, val_main_v6_apply, val_main_cst_0_apply]
  unfold val_main_v5
  rw [Host.reduce_eq_fold_single (FloatOps.maximumf (F := Ideal) (φ := .f32)) (val_main_v4 (F := Ideal) x0 x1 x2)
    (val_main_cst (F := Ideal)) reducesTo_S16384x64_S16384_d1 h h_S_, val_main_cst_apply]
  have hf : (val_main_v4 (F := Ideal) x0 x1 x2 ∘ h.lift (ix1 r)) = Router.logits x0 x1 x2 r :=
    funext fun (k : Fin 64) =>
      (congrArg (val_main_v4 (F := Ideal) x0 x1 x2) (lift_eq h r k)).trans (logits_eq x0 x1 x2 r k)
  rw [hf]
  show max (Ideal.ofBits .f32 0xFF800000#32)
      ((Finset.univ : Finset (Fin 64)).fold max (Ideal.ofBits .f32 0xFF800000#32) (Router.logits x0 x1 x2 r)) = _
  exact max_eq_right ((Finset.le_fold_max _).2 (Or.inl le_rfl))

/-- The exponentials the program takes, at (r, e): of the logit less the token's maximum. -/
theorem exp_eq (r : Fin 16384) (e : Fin 64) :
    val_main_v11 (F := Ideal) x0 x1 x2 (ix2 r e)
      = Ideal.exp (Router.logits x0 x1 x2 r e - Router.rowMax (Router.logits x0 x1 x2 r)) := by
  rw [val_main_v11_apply, val_main_v10_apply, val_main_v9_apply, val_main_v8_apply, midx_eq, rowmax_eq, logits_eq]
  rfl

/-- The denominator at (r, e): the sum of token r's exponentials (the sum starts from zero). -/
theorem denom_eq (r : Fin 16384) (e : Fin 64) :
    val_main_v14 (F := Ideal) x0 x1 x2 (ix2 r e)
      = ∑ e' : Fin 64, Ideal.exp (Router.logits x0 x1 x2 r e' - Router.rowMax (Router.logits x0 x1 x2 r)) := by
  rw [val_main_v14_apply, val_main_v13_apply, sidx_eq, val_main_v12_apply, val_main_cst_1_apply]
  simp only [kidx_eq, exp_eq, Ideal.ofBits_def, Ideal.ofBits_zero_f32, zero_add]

end

/-- The program's first result is the batch's routing probabilities. -/
theorem probs_eq (x0 : (⟨S16384x2048, .f32⟩ : BufTy).Contents (Elt Ideal))
    (x1 : (⟨S64x2048, .f32⟩ : BufTy).Contents (Elt Ideal)) (x2 : (⟨S64, .f32⟩ : BufTy).Contents (Elt Ideal)) :
    Cert.ReferenceIdeal.Read.val_main_v15 (F := Ideal) x0 x1 x2 = Router.probs x0 x1 x2 := by
  funext i
  obtain ⟨r, e, rfl⟩ : ∃ r e, i = ix2 r e := ⟨_, _, eq_ix2 i⟩
  rw [val_main_v15_apply, exp_eq, denom_eq]
  rfl

/-- The program's second result is the z-loss as coefficient × (sum / count): the total over the rank-2 index set is
    the double sum over tokens and experts, started from zero; the two literals stay as their words. -/
theorem zloss_eq (x0 : (⟨S16384x2048, .f32⟩ : BufTy).Contents (Elt Ideal))
    (x1 : (⟨S64x2048, .f32⟩ : BufTy).Contents (Elt Ideal)) (x2 : (⟨S64, .f32⟩ : BufTy).Contents (Elt Ideal)) :
    Cert.ReferenceIdeal.Read.val_main_v19 (F := Ideal) x0 x1 x2 = Router.zMean x0 x1 x2 := by
  funext i
  rw [val_main_v19_apply, val_main_v18_apply, val_main_v17_apply, val_main_cst_4_apply, val_main_cst_3_apply,
    val_main_cst_2_apply, sum_idx2]
  simp only [val_main_v16_apply, logits_eq, Ideal.mulf_def, Ideal.hostDivf_def, Ideal.ofBits_def, Ideal.ofBits_zero_f32,
    zero_add]
  rfl

end Cert.ReferenceIdeal.RefValue

end
-- ==== Proof.ZLossLaw.lean ====
/-
  The two spellings of the z-loss agree.

  Folded:  (∑ over the sixteen blocks of 1024 tokens of the block's squared logits) · (c · 2⁻²⁰);
  mean:    c · ((∑ over all 16384 tokens of the token's squared logits) / 2²⁰),
  with c = 8589935 · 2⁻³³ the coefficient. Two facts make them equal for every extended-real input:
    * (t, p) ↦ 1024 t + p is a bijection of 16 × 1024 onto 16384, so the blocked sum is the plain sum
      (sums over a commutative monoid may be re-indexed freely; nothing need be finite);
    * division by the nonzero real 2²⁰ is multiplication by its reciprocal, at the infinities too, and then
      only commutativity and associativity of the product, with (c) · (1 / 2²⁰) = c · 2⁻²⁰ among reals.
-/
import proofs.«150401_g29652454212574_cont_9to1_1881_22_alg».proof.Proof.Spec
import Mathlib.Algebra.BigOperators.Group.Finset.Defs
import Mathlib.Data.Fintype.BigOperators
import Mathlib.Data.EReal.Basic

noncomputable section

namespace Router

open Idealize.ShloMosaic Idealize.ShloMosaic.ValueIdx
open scoped BigOperators

/-! ### Re-indexing the blocked sum -/

/-- The sixteen blocks of 1024 consecutive tokens tile the 16384 tokens: (t, p) ↦ 1024 t + p is a bijection,
    with inverse r ↦ (r / 1024, r % 1024). -/
def tokenEquiv : Fin 16 × Fin 1024 ≃ Fin 16384 where
  toFun x := tokenRow x.1 x.2
  invFun r := (⟨r.val / 1024, by have := r.isLt; omega⟩, ⟨r.val % 1024, by omega⟩)
  left_inv x := by
    obtain ⟨t, p⟩ := x
    have ht := t.isLt
    have hp := p.isLt
    ext <;> simp [tokenRow] <;> omega
  right_inv r := by
    ext
    simp [tokenRow]
    omega

/-- A sum over the blocks of the sums within each block is the sum over all tokens. -/
theorem sum_tokenRow (f : Fin 16384 → EReal) :
    ∑ t : Fin 16, ∑ p : Fin 1024, f (tokenRow t p) = ∑ r : Fin 16384, f r := by
  rw [← Fintype.sum_prod_type']
  exact Fintype.sum_equiv tokenEquiv _ _ (fun _ => rfl)

/-! ### The three constants as reals

Each word is sign 0, an exponent field E and a fraction T, denoting (2²³ + T) · 2^(E − 150). -/

/-- The count: E = 147, T = 0, so 2²³ · 2⁻³ = 2²⁰ = 1048576. -/
theorem ofBits_count : Ideal.ofBits .f32 0x49800000#32 = ((1048576 : ℝ) : EReal) := by
  simp [Ideal.ofBits, Ideal.ieee, -EReal.coe_mul]; norm_num

/-- The coefficient: E = 117, T = 201327, so 8589935 · 2⁻³³. -/
theorem ofBits_coeff : Ideal.ofBits .f32 0x3A83126F#32 = ((8589935 / 2 ^ 33 : ℝ) : EReal) := by
  simp [Ideal.ofBits, Ideal.ieee, -EReal.coe_mul]; norm_num

/-- The coefficient with its exponent lowered by twenty: E = 97, the same T, so 8589935 · 2⁻⁵³. -/
theorem ofBits_coeffFolded : Ideal.ofBits .f32 0x3083126F#32 = ((8589935 / 2 ^ 53 : ℝ) : EReal) := by
  simp [Ideal.ofBits, Ideal.ieee, -EReal.coe_mul]; norm_num

/-! ### Moving the division by the count into the coefficient -/

/-- For any extended real S:  S · (c · 2⁻²⁰) = c · (S / 2²⁰).  The division is S · (1 / 2²⁰) since 2²⁰ ≠ 0;
    the product is commutative and associative, and c · (1 / 2²⁰) = c · 2⁻²⁰ is an identity of reals. -/
theorem scale_law (S : EReal) :
    S * Ideal.ofBits .f32 0x3083126F#32
      = Ideal.ofBits .f32 0x3A83126F#32 * Ideal.div S (Ideal.ofBits .f32 0x49800000#32) := by
  rw [ofBits_count, ofBits_coeff, ofBits_coeffFolded, Ideal.div_coe (by norm_num), mul_left_comm,
    ← EReal.coe_mul]
  congr 2
  norm_num

/-- The folded spelling of the z-loss equals the mean spelling, for all inputs. -/
theorem zFolded_eq_zMean (x : (⟨2, ![16384, 2048]⟩ : Shape).Idx → EReal) (W : WShape.Idx → EReal)
    (b : (⟨1, ![64]⟩ : Shape).Idx → EReal) :
    zFolded x W b = zMean x W b := by
  funext _
  simp only [zFolded, zMean, blockSq]
  rw [sum_tokenRow (fun r => sqNorm (logits x W b r))]
  exact scale_law _

end Router

end
-- ==== Proof.lean ====
/-
  A fused mixture-of-experts router kernel against its plain reference.

  Both programs take tokens x (16384 × 2048), weights W (64 × 2048) and bias b (64), and return the routing
  probabilities softmax (x Wᵀ + b) per token and the z-loss, a coefficient times the mean squared logit.
  The kernel walks sixteen blocks of 1024 tokens: per block it forms the logits with one matrix product, stores the
  block's softmax, and adds the block's sum of squared logits to a carried scalar; after the last block it multiplies
  the total by one literal, the coefficient's word with its exponent lowered by twenty. The reference forms all the
  logits at once, takes the softmax along the experts, sums all squared logits, divides by 2²⁰ and multiplies by the
  coefficient.
  On the extended reals the two agree for every input: each token's logits and softmax are computed by the same
  formula on both sides; a sum over all tokens is the sum over the blocks of the sums within each block; and
  S · (c · 2⁻²⁰) = c · (S / 2²⁰) by commutativity and associativity of the product, division by the nonzero 2²⁰
  being multiplication by its reciprocal at the infinities too. No finiteness of the inputs is used.
  The idealization rewrote nothing, so the claim about it is trivial; the three programs' runs terminate without a
  fault and leave the arguments unchanged.
-/
import proofs.«150401_g29652454212574_cont_9to1_1881_22_alg».proof.Defs
import proofs.«150401_g29652454212574_cont_9to1_1881_22_alg».proof.Proof.Gen.Kernel
import proofs.«150401_g29652454212574_cont_9to1_1881_22_alg».proof.Proof.Gen.Kernel.Skeleton
import proofs.«150401_g29652454212574_cont_9to1_1881_22_alg».proof.Proof.Gen.Kernel.Launch
import proofs.«150401_g29652454212574_cont_9to1_1881_22_alg».proof.Proof.Gen.Kernel.Points
import proofs.«150401_g29652454212574_cont_9to1_1881_22_alg».proof.Proof.Gen.Kernel.Frame
import proofs.«150401_g29652454212574_cont_9to1_1881_22_alg».proof.Proof.Gen.KernelIdeal
import proofs.«150401_g29652454212574_cont_9to1_1881_22_alg».proof.Proof.Gen.KernelIdeal.Skeleton
import proofs.«150401_g29652454212574_cont_9to1_1881_22_alg».proof.Proof.Gen.KernelIdeal.Launch
import proofs.«150401_g29652454212574_cont_9to1_1881_22_alg».proof.Proof.Gen.KernelIdeal.Points
import proofs.«150401_g29652454212574_cont_9to1_1881_22_alg».proof.Proof.Gen.KernelIdeal.Frame
import proofs.«150401_g29652454212574_cont_9to1_1881_22_alg».proof.Proof.Gen.ReferenceIdeal
import proofs.«150401_g29652454212574_cont_9to1_1881_22_alg».proof.Proof.Gen.Pre_finite_inputs
import proofs.«150401_g29652454212574_cont_9to1_1881_22_alg».proof.Proof.Gen.ReferenceIdeal.Run
import proofs.«150401_g29652454212574_cont_9to1_1881_22_alg».proof.Proof.Gen.ReferenceIdeal.Read
import proofs.«150401_g29652454212574_cont_9to1_1881_22_alg».proof.Proof.KernelValue
import proofs.«150401_g29652454212574_cont_9to1_1881_22_alg».proof.Proof.RefValue
import proofs.«150401_g29652454212574_cont_9to1_1881_22_alg».proof.Proof.ZLossLaw
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end at the router's probabilities and z-loss of arguments that agree: the kernel's with the count
    folded into the coefficient, the reference's as coefficient × (sum / count), which are equal. -/
theorem algebraic : Cert.algebraic_KernelIdeal_ReferenceIdeal := by
  intro m ρ m' ρ' _ hagree
  refine ⟨fun c => Cert.KernelIdeal.KValue.probsArr m c, fun c => Cert.KernelIdeal.KValue.zRes m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v15_eq _ _ _).trans (Cert.ReferenceIdeal.RefValue.probs_eq _ _ _)
  · rw [(hagree c).1, (hagree c).2.1, (hagree c).2.2]
    exact (Cert.ReferenceIdeal.Read.val_main_v19_eq _ _ _).trans
      ((Cert.ReferenceIdeal.RefValue.zloss_eq _ _ _).trans (Router.zFolded_eq_zMean _ _ _).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
